-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S10000x64 : Shape := ⟨2, ![10000, 64]⟩

abbrev nBuf : Space → Nat
  | .hbm => 46
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S64x64, .f32⟩
  | .hbm, ⟨26, _⟩ => ⟨S64x64, .f32⟩
  | .hbm, ⟨27, _⟩ => ⟨S1x64, .f32⟩
  | .hbm, ⟨28, _⟩ => ⟨S100000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S64x64, .f32⟩
  | .hbm, ⟨43, _⟩ => ⟨S64x64, .f32⟩
  | .hbm, ⟨44, _⟩ => ⟨S1x64, .f32⟩
  | .hbm, ⟨45, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 57
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S64x64, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S64x64, .f32⟩
  | .hbm, ⟨31, _⟩ => ⟨S100000x64, .f32⟩
  | .hbm, ⟨32, _⟩ => ⟨S100000x64, .f32⟩
  | .hbm, ⟨33, _⟩ => ⟨S_, .f32⟩
  | .hbm, ⟨34, _⟩ => ⟨S100000x64, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S64x64, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S64x64, .f32⟩
  | .hbm, ⟨55, _⟩ => ⟨S100000x64, .f32⟩
  | .hbm, ⟨56, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.TileValue.lean ====
/-
  One tile of a graph-convolution layer's combine step, read at an entry.

  A tile holds 10000 node rows. Its body multiplies the tile of aggregated neighbour features by the
  (already transposed) relation weight, the tile of the nodes' own features by the (already transposed)
  root weight, adds the two products, adds the bias row to every node row, and in the first layer
  clamps at zero. Over the extended reals a change of float format is the identity and a matrix
  product into a zero accumulator is the plain sum over the contracted axis, so entry (p, q) of the
  tile's result is

      (sum_k agg[p,k] * wrel[k,q]  +  sum_k h[p,k] * wroot[k,q])  +  bias[0,q]

  (the first layer: the maximum of that and zero).
-/
import proofs.«107677_j25744033973010_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The record of the tile's two matrix products: [10000,64] by [64,64], contracting the
    left operand's columns with the right operand's rows. -/
abbrev tileDot := dot_S10000x64_S64x64_S10000x64_1_0_0_1_n_n

theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A tile's matrix product into the zero accumulator, at row p and column q, is the sum over the
    64 contracted positions of left[p,k] * right[k,q]. -/
theorem matmul_at {φ₁ φ₂ : FTy} (x : FVec Ideal S10000x64 φ₁) (w : FVec Ideal S64x64 φ₂) (p : Fin 10000) (q : Fin 64) :
    matmul (F := Ideal) dot_S10000x64_S64x64_S10000x64_1_0_0_1_n_n none x w (constant (F := Ideal) S10000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- The bias row spread over the tile's node rows: entry (p, q) is bias[0,q]. -/
theorem bias_at (b : FVec Ideal S1x64 .f32) (p : Fin 10000) (q : Fin 64) :
    broadcastTo S10000x64 b broadcasts_S1x64_S10000x64 (ix2 p q) = b (ix2 0 q) :=
  broadcastTo_apply b broadcasts_S1x64_S10000x64 (ix2 p q) (ix2 0 q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-- The tile's affine part at entry (p, q). -/
def affineAt (x0 x1 : S10000x64.Idx → EReal) (x2 x3 : S64x64.Idx → EReal) (x4 : S1x64.Idx → EReal) (p : Fin 10000) (q : Fin 64) : EReal :=
  ((∑ k : Fin 64, x0 (ix2 p k) * x2 (ix2 k q)) + ∑ k : Fin 64, x1 (ix2 p k) * x3 (ix2 k q)) + x4 (ix2 0 q)

/-- First layer: the stored tile at (p, q) is the affine part clamped at zero. -/
theorem layer1_at (x0 x1 : Vec Ideal S10000x64 .f32) (x2 x3 : Vec Ideal S64x64 .f32) (x4 : Vec Ideal S1x64 .f32) (p : Fin 10000) (q : Fin 64) :
    k0_pay1 (F := Ideal) x0 x1 x2 x3 x4 (ix2 p q) = max (affineAt x0 x1 x2 x3 x4 p q) (Ideal.ofBits .f32 0x00000000#32) := by
  unfold k0_pay1 affineAt
  simp only [shapeCast_self]
  show max ((matmul (F := Ideal) dot_S10000x64_S64x64_S10000x64_1_0_0_1_n_n none (truncf .bf16 x0 bitsLt_bf16_f32) (truncf .bf16 x2 bitsLt_bf16_f32) (constant (F := Ideal) S10000x64 .f32 0x00000000#32) (ix2 p q)
      + matmul (F := Ideal) dot_S10000x64_S64x64_S10000x64_1_0_0_1_n_n none (truncf .bf16 x1 bitsLt_bf16_f32) (truncf .bf16 x3 bitsLt_bf16_f32) (constant (F := Ideal) S10000x64 .f32 0x00000000#32) (ix2 p q))
      + broadcastTo S10000x64 x4 broadcasts_S1x64_S10000x64 (ix2 p q)) (Ideal.ofBits .f32 0x00000000#32) = _
  rw [matmul_at, matmul_at, bias_at]
  rfl

/-- Second layer: the stored tile at (p, q) is the affine part. -/
theorem layer2_at (x0 x1 : Vec Ideal S10000x64 .f32) (x2 x3 : Vec Ideal S64x64 .f32) (x4 : Vec Ideal S1x64 .f32) (p : Fin 10000) (q : Fin 64) :
    k1_pay1 (F := Ideal) x0 x1 x2 x3 x4 (ix2 p q) = affineAt x0 x1 x2 x3 x4 p q := by
  unfold k1_pay1 affineAt
  simp only [shapeCast_self]
  show (matmul (F := Ideal) dot_S10000x64_S64x64_S10000x64_1_0_0_1_n_n none (truncf .bf16 x0 bitsLt_bf16_f32) (truncf .bf16 x2 bitsLt_bf16_f32) (constant (F := Ideal) S10000x64 .f32 0x00000000#32) (ix2 p q)
      + matmul (F := Ideal) dot_S10000x64_S64x64_S10000x64_1_0_0_1_n_n none (truncf .bf16 x1 bitsLt_bf16_f32) (truncf .bf16 x3 bitsLt_bf16_f32) (constant (F := Ideal) S10000x64 .f32 0x00000000#32) (ix2 p q))
      + broadcastTo S10000x64 x4 broadcasts_S1x64_S10000x64 (ix2 p q) = _
  rw [matmul_at, matmul_at, bias_at]
  rfl

end Cert.KernelIdeal.Tile

end
-- ==== Proof.Layer.lean ====
/-
  A graph-convolution layer's combine step as one function of whole arrays.

  For node features h : [100000, 64], aggregated neighbour features agg : [100000, 64], the two weights
  already transposed (wrel, wroot : [64, 64], indexed [input feature, output feature]) and the bias as a
  row (bias : [1, 64]), entry (r, q) of the layer's output is

      (sum_k agg[r,k] * wrel[k,q]  +  sum_k h[r,k] * wroot[k,q])  +  bias[0,q]

  and the first layer clamps it at zero. The sums are over the extended reals, where addition is
  commutative and associative (no finiteness is needed to regroup them).
-/
import Idealize.ShloMosaic.PureOps.Ideal
import Idealize.ShloMosaic.Lib.ValueIdx

noncomputable section

namespace Cert.Layer

open Idealize.ShloMosaic Idealize.ShloMosaic.ValueIdx

/-- Node-feature arrays, weights, and the bias row. -/
abbrev Nodes : Shape := ⟨2, ![100000, 64]⟩
abbrev Weight : Shape := ⟨2, ![64, 64]⟩
abbrev BiasRow : Shape := ⟨2, ![1, 64]⟩

/-- Entry (r, q) of the affine combine. -/
def affineAt (agg h : Nodes.Idx → EReal) (wrel wroot : Weight.Idx → EReal) (bias : BiasRow.Idx → EReal)
    (r : Fin 100000) (q : Fin 64) : EReal :=
  ((∑ k : Fin 64, agg (ix2 r k) * wrel (ix2 k q)) + ∑ k : Fin 64, h (ix2 r k) * wroot (ix2 k q)) + bias (ix2 0 q)

/-- The second layer: the affine combine. -/
def affine (agg h : Nodes.Idx → EReal) (wrel wroot : Weight.Idx → EReal) (bias : BiasRow.Idx → EReal) : Nodes.Idx → EReal :=
  fun i => affineAt agg h wrel wroot bias (i 0) (i 1)

/-- The first layer: the affine combine clamped at zero. -/
def affineRelu (agg h : Nodes.Idx → EReal) (wrel wroot : Weight.Idx → EReal) (bias : BiasRow.Idx → EReal) : Nodes.Idx → EReal :=
  fun i => max (affineAt agg h wrel wroot bias (i 0) (i 1)) (Ideal.ofBits .f32 0x00000000#32)

end Cert.Layer

end
-- ==== Proof.Region0.lean ====
/-
  Region 0 of the program (the first layer's combine step), from tiles to the whole array.

  The grid has ten points; point t holds node rows 10000 t … 10000 t + 9999 of the aggregated input
  features, of the input features themselves and of the output, and the whole of each weight and of the
  bias row. What point t writes back is therefore tile t of ONE whole-array function of the arrays the
  region finds — the layer's affine combine clamped at zero (Layer.lean) — and the ten tiles cover every
  node row (row r lies in tile r / 10000), so the output array ends holding that function everywhere.
-/
import proofs.«107677_j25744033973010_1_alg».proof.Proof.Gen.KernelIdeal.Frame
import proofs.«107677_j25744033973010_1_alg».proof.Proof.TileValue
import proofs.«107677_j25744033973010_1_alg».proof.Proof.Layer

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The five input tiles of point t, each at its literal type: rows 10000 t … of the aggregated input
    features and of the input features, the two whole weights, the bias row. -/
abbrev aggTile (c : Dev nD) (t : Fin cfg0.N) : Vec Ideal S10000x64 .f32 := iblk0 V c 0 t
abbrev ownTile (c : Dev nD) (t : Fin cfg0.N) : Vec Ideal S10000x64 .f32 := iblk0 V c 1 t
abbrev relTile (c : Dev nD) (t : Fin cfg0.N) : Vec Ideal S64x64 .f32 := iblk0 V c 2 t
abbrev rootTile (c : Dev nD) (t : Fin cfg0.N) : Vec Ideal S64x64 .f32 := iblk0 V c 3 t
abbrev biasTile (c : Dev nD) (t : Fin cfg0.N) : Vec Ideal S1x64 .f32 := iblk0 V c 4 t

theorem origin : (![0, 0] : Fin 2 → Nat) = fun _ => 0 := funext fun a => by fin_cases a <;> rfl

/-- What the output array ends holding: the layer's clamped combine of the five arrays as the region finds them. -/
def whole (c : Dev nD) : S100000x64.Idx → EReal :=
  Cert.Layer.affineRelu (V c main_v13) (V c main_arg0) (V c main_v14) (V c main_v15) (V c main_v16)

/-- The printed index maps over the ten grid points: the two node-feature windows move with the output
    window along the node axis, the weights and the bias row stay at block (0, 0), and the output's block
    row is at most 9. -/
theorem blocks_at : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every block row 0 … 9 of the output is some point's. -/
theorem block_of_row : ∀ (b : Fin 10), ∃ t : Fin cfg0.N, win0_5.index t = ![b.val, 0] :=
  (by decide +kernel : ∀ (b : Fin 10), ∃ t : Fin grid0.N, win0_5.index t = ![b.val, 0])

/-- WHAT POINT t WRITES BACK is tile t of the layer's clamped combine of the arrays the region finds. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero origin]
  simp only [View.ld_unit_zero (S := S10000x64) origin, View.ld_unit_zero (S := S64x64) origin, View.ld_unit_zero (S := S1x64) origin]
  obtain ⟨e00, e01, e10, e11, e20, e21, e30, e31, e40, e41, e51, e5b⟩ := blocks_at t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = whole V c (((cfg0.win 5).blk t).view.emb (ix2 p q))
  refine (Cert.KernelIdeal.Tile.layer1_at (iblk0 V c 0 t) (iblk0 V c 1 t) (iblk0 V c 2 t) (iblk0 V c 3 t) (iblk0 V c 4 t) p q).trans ?_
  have hagg : ∀ k : Fin 64, ((cfg0.win 0).blk t).view.emb (ix2 p k) = ix2 (((cfg0.win 5).blk t).view.emb (ix2 p q) 0) k := fun k => by
    funext a; apply Fin.ext
    match a with
    | ⟨0, _⟩ => show win0_0.index t (0 : Fin 2) * 10000 + 1 * p.val = win0_5.index t (0 : Fin 2) * 10000 + 1 * p.val; omega
    | ⟨1, _⟩ => show win0_0.index t (1 : Fin 2) * 64 + 1 * k.val = k.val; omega
  have hown : ∀ k : Fin 64, ((cfg0.win 1).blk t).view.emb (ix2 p k) = ix2 (((cfg0.win 5).blk t).view.emb (ix2 p q) 0) k := fun k => by
    funext a; apply Fin.ext
    match a with
    | ⟨0, _⟩ => show win0_1.index t (0 : Fin 2) * 10000 + 1 * p.val = win0_5.index t (0 : Fin 2) * 10000 + 1 * p.val; omega
    | ⟨1, _⟩ => show win0_1.index t (1 : Fin 2) * 64 + 1 * k.val = k.val; omega
  have hrel : ∀ k : Fin 64, ((cfg0.win 2).blk t).view.emb (ix2 k q) = ix2 k (((cfg0.win 5).blk t).view.emb (ix2 p q) 1) := fun k => by
    funext a; apply Fin.ext
    match a with
    | ⟨0, _⟩ => show win0_2.index t (0 : Fin 2) * 64 + 1 * k.val = k.val; omega
    | ⟨1, _⟩ => show win0_2.index t (1 : Fin 2) * 64 + 1 * q.val = win0_5.index t (1 : Fin 2) * 64 + 1 * q.val; omega
  have hroot : ∀ k : Fin 64, ((cfg0.win 3).blk t).view.emb (ix2 k q) = ix2 k (((cfg0.win 5).blk t).view.emb (ix2 p q) 1) := fun k => by
    funext a; apply Fin.ext
    match a with
    | ⟨0, _⟩ => show win0_3.index t (0 : Fin 2) * 64 + 1 * k.val = k.val; omega
    | ⟨1, _⟩ => show win0_3.index t (1 : Fin 2) * 64 + 1 * q.val = win0_5.index t (1 : Fin 2) * 64 + 1 * q.val; omega
  have hbias : ((cfg0.win 4).blk t).view.emb (ix2 (0 : Fin 1) q) = ix2 (0 : Fin 1) (((cfg0.win 5).blk t).view.emb (ix2 p q) 1) := by
    funext a; apply Fin.ext
    match a with
    | ⟨0, _⟩ => show win0_4.index t (0 : Fin 2) * 1 + 1 * 0 = 0; omega
    | ⟨1, _⟩ => show win0_4.index t (1 : Fin 2) * 64 + 1 * q.val = win0_5.index t (1 : Fin 2) * 64 + 1 * q.val; omega
  have ragg : ∀ k : Fin 64, aggTile V c t (ix2 p k) = V c main_v13 (ix2 (((cfg0.win 5).blk t).view.emb (ix2 p q) 0) k) :=
    fun k => congrArg (V c main_v13) (hagg k)
  have rown : ∀ k : Fin 64, ownTile V c t (ix2 p k) = V c main_arg0 (ix2 (((cfg0.win 5).blk t).view.emb (ix2 p q) 0) k) :=
    fun k => congrArg (V c main_arg0) (hown k)
  have rrel : ∀ k : Fin 64, relTile V c t (ix2 k q) = V c main_v14 (ix2 k (((cfg0.win 5).blk t).view.emb (ix2 p q) 1)) :=
    fun k => congrArg (V c main_v14) (hrel k)
  have rroot : ∀ k : Fin 64, rootTile V c t (ix2 k q) = V c main_v15 (ix2 k (((cfg0.win 5).blk t).view.emb (ix2 p q) 1)) :=
    fun k => congrArg (V c main_v15) (hroot k)
  have rbias : biasTile V c t (ix2 (0 : Fin 1) q) = V c main_v16 (ix2 (0 : Fin 1) (((cfg0.win 5).blk t).view.emb (ix2 p q) 1)) :=
    congrArg (V c main_v16) hbias
  unfold whole Cert.Layer.affineRelu Cert.Layer.affineAt Cert.KernelIdeal.Tile.affineAt
  refine congrArg (fun z => max z (Ideal.ofBits .f32 0x00000000#32)) ?_
  refine congrArg₂ (· + ·) (congrArg₂ (· + ·) (Finset.sum_congr rfl fun k _ => ?_) (Finset.sum_congr rfl fun k _ => ?_)) rbias
  · exact congrArg₂ (· * ·) (ragg k) (rrel k)
  · exact congrArg₂ (· * ·) (rown k) (rroot k)

/-- An index of the array is in point t's tile iff each coordinate is in the tile's range on its axis. -/
theorem mem_tile (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v17).slice (win0_5.rect t)).set ↔ _
  rw [View.set_slice_whole, Rect.mem_set_unit]
  exact Iff.rfl

/-- Every node row lies in some point's tile: row r in the tile of block row r / 10000. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := block_of_row ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_tile]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- THE OUTPUT ARRAY after the region: the layer's clamped combine of the arrays the region finds, at every entry. -/
theorem final (c : Dev nD) : (dat0 V c).arrAt 5 cfg0.N = whole V c :=
  (dat0 V c).arrAt_eq_of_cover 5 (whole V c) (fun t _ => flushed_eq V c t) covered

end Cert.KernelIdeal.Region0

end
-- ==== Proof.Region1.lean ====
/-
  Region 1 of the program (the second layer's combine step), from tiles to the whole array.

  The grid has ten points; point t holds node rows 10000 t … 10000 t + 9999 of the aggregated hidden
  features, of the hidden features themselves and of the output, and the whole of each weight and of the
  bias row. What point t writes back is therefore tile t of ONE whole-array function of the arrays the
  region finds — the layer's affine combine (Layer.lean), with no clamp in this layer — and the ten tiles
  cover every node row (row r lies in tile r / 10000), so the output array ends holding that function
  everywhere.
-/
import proofs.«107677_j25744033973010_1_alg».proof.Proof.Gen.KernelIdeal.Frame
import proofs.«107677_j25744033973010_1_alg».proof.Proof.TileValue
import proofs.«107677_j25744033973010_1_alg».proof.Proof.Layer

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The five input tiles of point t, each at its literal type: rows 10000 t … of the aggregated hidden
    features and of the hidden features, the two whole weights, the bias row. -/
abbrev aggTile (c : Dev nD) (t : Fin cfg1.N) : Vec Ideal S10000x64 .f32 := iblk1 V c 0 t
abbrev ownTile (c : Dev nD) (t : Fin cfg1.N) : Vec Ideal S10000x64 .f32 := iblk1 V c 1 t
abbrev relTile (c : Dev nD) (t : Fin cfg1.N) : Vec Ideal S64x64 .f32 := iblk1 V c 2 t
abbrev rootTile (c : Dev nD) (t : Fin cfg1.N) : Vec Ideal S64x64 .f32 := iblk1 V c 3 t
abbrev biasTile (c : Dev nD) (t : Fin cfg1.N) : Vec Ideal S1x64 .f32 := iblk1 V c 4 t

theorem origin : (![0, 0] : Fin 2 → Nat) = fun _ => 0 := funext fun a => by fin_cases a <;> rfl

/-- What the output array ends holding: the layer's affine combine of the five arrays as the region finds them. -/
def whole (c : Dev nD) : S100000x64.Idx → EReal :=
  Cert.Layer.affine (V c main_v27) (V c main_v17) (V c main_v28) (V c main_v29) (V c main_v30)

/-- The printed index maps over the ten grid points: the two node-feature windows move with the output
    window along the node axis, the weights and the bias row stay at block (0, 0), and the output's block
    row is at most 9. -/
theorem blocks_at : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every block row 0 … 9 of the output is some point's. -/
theorem block_of_row : ∀ (b : Fin 10), ∃ t : Fin cfg1.N, win1_5.index t = ![b.val, 0] :=
  (by decide +kernel : ∀ (b : Fin 10), ∃ t : Fin grid1.N, win1_5.index t = ![b.val, 0])

/-- WHAT POINT t WRITES BACK is tile t of the layer's affine combine of the arrays the region finds. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero origin]
  simp only [View.ld_unit_zero (S := S10000x64) origin, View.ld_unit_zero (S := S64x64) origin, View.ld_unit_zero (S := S1x64) origin]
  obtain ⟨e00, e01, e10, e11, e20, e21, e30, e31, e40, e41, e51, e5b⟩ := blocks_at t
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = whole V c (((cfg1.win 5).blk t).view.emb (ix2 p q))
  refine (Cert.KernelIdeal.Tile.layer2_at (iblk1 V c 0 t) (iblk1 V c 1 t) (iblk1 V c 2 t) (iblk1 V c 3 t) (iblk1 V c 4 t) p q).trans ?_
  have hagg : ∀ k : Fin 64, ((cfg1.win 0).blk t).view.emb (ix2 p k) = ix2 (((cfg1.win 5).blk t).view.emb (ix2 p q) 0) k := fun k => by
    funext a; apply Fin.ext
    match a with
    | ⟨0, _⟩ => show win1_0.index t (0 : Fin 2) * 10000 + 1 * p.val = win1_5.index t (0 : Fin 2) * 10000 + 1 * p.val; omega
    | ⟨1, _⟩ => show win1_0.index t (1 : Fin 2) * 64 + 1 * k.val = k.val; omega
  have hown : ∀ k : Fin 64, ((cfg1.win 1).blk t).view.emb (ix2 p k) = ix2 (((cfg1.win 5).blk t).view.emb (ix2 p q) 0) k := fun k => by
    funext a; apply Fin.ext
    match a with
    | ⟨0, _⟩ => show win1_1.index t (0 : Fin 2) * 10000 + 1 * p.val = win1_5.index t (0 : Fin 2) * 10000 + 1 * p.val; omega
    | ⟨1, _⟩ => show win1_1.index t (1 : Fin 2) * 64 + 1 * k.val = k.val; omega
  have hrel : ∀ k : Fin 64, ((cfg1.win 2).blk t).view.emb (ix2 k q) = ix2 k (((cfg1.win 5).blk t).view.emb (ix2 p q) 1) := fun k => by
    funext a; apply Fin.ext
    match a with
    | ⟨0, _⟩ => show win1_2.index t (0 : Fin 2) * 64 + 1 * k.val = k.val; omega
    | ⟨1, _⟩ => show win1_2.index t (1 : Fin 2) * 64 + 1 * q.val = win1_5.index t (1 : Fin 2) * 64 + 1 * q.val; omega
  have hroot : ∀ k : Fin 64, ((cfg1.win 3).blk t).view.emb (ix2 k q) = ix2 k (((cfg1.win 5).blk t).view.emb (ix2 p q) 1) := fun k => by
    funext a; apply Fin.ext
    match a with
    | ⟨0, _⟩ => show win1_3.index t (0 : Fin 2) * 64 + 1 * k.val = k.val; omega
    | ⟨1, _⟩ => show win1_3.index t (1 : Fin 2) * 64 + 1 * q.val = win1_5.index t (1 : Fin 2) * 64 + 1 * q.val; omega
  have hbias : ((cfg1.win 4).blk t).view.emb (ix2 (0 : Fin 1) q) = ix2 (0 : Fin 1) (((cfg1.win 5).blk t).view.emb (ix2 p q) 1) := by
    funext a; apply Fin.ext
    match a with
    | ⟨0, _⟩ => show win1_4.index t (0 : Fin 2) * 1 + 1 * 0 = 0; omega
    | ⟨1, _⟩ => show win1_4.index t (1 : Fin 2) * 64 + 1 * q.val = win1_5.index t (1 : Fin 2) * 64 + 1 * q.val; omega
  have ragg : ∀ k : Fin 64, aggTile V c t (ix2 p k) = V c main_v27 (ix2 (((cfg1.win 5).blk t).view.emb (ix2 p q) 0) k) :=
    fun k => congrArg (V c main_v27) (hagg k)
  have rown : ∀ k : Fin 64, ownTile V c t (ix2 p k) = V c main_v17 (ix2 (((cfg1.win 5).blk t).view.emb (ix2 p q) 0) k) :=
    fun k => congrArg (V c main_v17) (hown k)
  have rrel : ∀ k : Fin 64, relTile V c t (ix2 k q) = V c main_v28 (ix2 k (((cfg1.win 5).blk t).view.emb (ix2 p q) 1)) :=
    fun k => congrArg (V c main_v28) (hrel k)
  have rroot : ∀ k : Fin 64, rootTile V c t (ix2 k q) = V c main_v29 (ix2 k (((cfg1.win 5).blk t).view.emb (ix2 p q) 1)) :=
    fun k => congrArg (V c main_v29) (hroot k)
  have rbias : biasTile V c t (ix2 (0 : Fin 1) q) = V c main_v30 (ix2 (0 : Fin 1) (((cfg1.win 5).blk t).view.emb (ix2 p q) 1)) :=
    congrArg (V c main_v30) hbias
  unfold whole Cert.Layer.affine Cert.Layer.affineAt Cert.KernelIdeal.Tile.affineAt
  refine congrArg₂ (· + ·) (congrArg₂ (· + ·) (Finset.sum_congr rfl fun k _ => ?_) (Finset.sum_congr rfl fun k _ => ?_)) rbias
  · exact congrArg₂ (· * ·) (ragg k) (rrel k)
  · exact congrArg₂ (· * ·) (rown k) (rroot k)

/-- An index of the array is in point t's tile iff each coordinate is in the tile's range on its axis. -/
theorem mem_tile (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v31).slice (win1_5.rect t)).set ↔ _
  rw [View.set_slice_whole, Rect.mem_set_unit]
  exact Iff.rfl

/-- Every node row lies in some point's tile: row r in the tile of block row r / 10000. -/
theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := block_of_row ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_tile]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- THE OUTPUT ARRAY after the region: the layer's affine combine of the arrays the region finds, at every entry. -/
theorem final (c : Dev nD) : (dat1 V c).arrAt 5 cfg1.N = whole V c :=
  (dat1 V c).arrAt_eq_of_cover 5 (whole V c) (fun t _ => flushed_eq V c t) covered

end Cert.KernelIdeal.Region1

end
-- ==== Proof.HostChain.lean ====
/-
  The host-side pieces both layers share, each as one named function.

  An edge list e : [2, 1600000] gives every edge a source node (row 0; a negative entry is wrapped by adding
  the node count 100000) and a target node (row 1). The neighbour sum of node features x : [100000, 64]
  gathers x at every edge's source and adds the gathered rows into a zero array at the edge's target
  (a segment sum). Each layer also takes its two weights transposed and its bias as a one-row array.
  These functions are never opened in the proofs: both programs apply the same ones to the same arguments.
-/
import proofs.«107677_j25744033973010_1_alg».proof.Proof.Gen.KernelIdeal

noncomputable section

namespace Cert.KernelIdeal.Graph

open Cert.KernelIdeal Cert.KernelIdeal.Facts₀ Idealize.ShloMosaic

variable {F : FTy → Type} [FloatOps F]

/-- Row 0 of the edge list: the edges' sources as written. -/
def srcRow (e : IVec S2x1600000 32) : IVec S1600000 32 :=
  shapeCast S1600000 (extractStridedSlice S1x1600000 ![0, 0] e slices_S2x1600000_S1x1600000_0_0) shapeCasts_S1x1600000_S1600000

/-- Row 1 of the edge list: the edges' targets. -/
def dstRow (e : IVec S2x1600000 32) : IVec S1600000 32 :=
  shapeCast S1600000 (extractStridedSlice S1x1600000 ![1, 0] e slices_S2x1600000_S1x1600000_1_0) shapeCasts_S1x1600000_S1600000

/-- The gather's index column: each source, a negative one wrapped by the node count. -/
def sources (e : IVec S2x1600000 32) : IVec S1600000x1 32 :=
  broadcastInDim S1600000x1 ![0] bcast_S1600000_S1600000x1_0
    (select (cmpi .slt (srcRow e) (broadcastInDim S1600000 ![] bcast_S_S1600000 (constantI S_ 32 0#32)))
      (addi (srcRow e) (broadcastInDim S1600000 ![] bcast_S_S1600000 (constantI S_ 32 100000#32)))
      (srcRow e))

/-- The scatter's index column: each target. -/
def targets (e : IVec S2x1600000 32) : IVec S1600000x1 32 :=
  broadcastInDim S1600000x1 ![0] bcast_S1600000_S1600000x1_0 (dstRow e)

/-- The neighbour sum: x gathered at the sources, added into zeros at the targets. -/
def neighbourSum (x : FVec F S100000x64 .f32) (e : IVec S2x1600000 32) : FVec F S100000x64 .f32 :=
  Host.scatterAdd scatter_S100000x64_S1600000x1_S1600000x64_1_0_0_1
    (broadcastInDim S100000x64 ![] bcast_S_S100000x64 (constant S_ .f32 0x00000000#32))
    (targets e)
    (Host.gather gather_S100000x64_S1600000x1_S1600000x64_1_0_n_n_0_1_164 x (sources e))

/-- A weight transposed: entry [k, q] of the result is entry [q, k] of the weight. -/
def weightT (w : FVec F S64x64 .f32) : FVec F S64x64 .f32 :=
  transpose S64x64 [1, 0] w transposes_S64x64_S64x64_1_0

/-- A bias as a one-row array. -/
def biasRow (b : FVec F S64 .f32) : FVec F S1x64 .f32 :=
  shapeCast S1x64 b shapeCasts_S64_S1x64

end Cert.KernelIdeal.Graph

end
-- ==== Proof.KernelValue.lean ====
/-
  The kernel program's result as a function of its arguments.

  Region 0 is entered with the neighbour sum of the input features, the input features, the first layer's
  two weights transposed and its bias as a row; it leaves the hidden features: the layer's combine of those
  clamped at zero. Region 1 is entered with the neighbour sum of the hidden features, the hidden features,
  the second layer's transposed weights and bias row; it leaves the result: the layer's affine combine.
-/
import proofs.«107677_j25744033973010_1_alg».proof.Proof.Gen.KernelIdeal.Frame
import proofs.«107677_j25744033973010_1_alg».proof.Proof.Region0
import proofs.«107677_j25744033973010_1_alg».proof.Proof.Region1
import proofs.«107677_j25744033973010_1_alg».proof.Proof.HostChain
import Idealize.ShloMosaic.Lib.StableHlo.Run

set_option maxRecDepth 16384

noncomputable section

namespace Cert.KernelIdeal.Result

open Cert.KernelIdeal Cert.KernelIdeal.Gen Cert.KernelIdeal.Graph
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What region 0 finds -/

theorem entry0_agg (c : Dev nD) :
    V1 m ρ c main_v13 = neighbourSum (F := Ideal) (m ((c : Thread nD τ).loc main_arg0)) (m ((c : Thread nD τ).loc main_arg1)) := by
  show StableHlo.after hostOps0 (W0 m ρ c) (Proc.devRef .tc main_v13) = _
  after_results
  rfl

theorem entry0_own (c : Dev nD) : V1 m ρ c main_arg0 = m ((c : Thread nD τ).loc main_arg0) := by
  show StableHlo.after hostOps0 (W0 m ρ c) (Proc.devRef .tc main_arg0) = _
  after_results

theorem entry0_rel (c : Dev nD) : V1 m ρ c main_v14 = weightT (F := Ideal) (m ((c : Thread nD τ).loc main_arg2)) := by
  show StableHlo.after hostOps0 (W0 m ρ c) (Proc.devRef .tc main_v14) = _
  after_results
  rfl

theorem entry0_root (c : Dev nD) : V1 m ρ c main_v15 = weightT (F := Ideal) (m ((c : Thread nD τ).loc main_arg4)) := by
  show StableHlo.after hostOps0 (W0 m ρ c) (Proc.devRef .tc main_v15) = _
  after_results
  rfl

theorem entry0_bias (c : Dev nD) : V1 m ρ c main_v16 = biasRow (F := Ideal) (m ((c : Thread nD τ).loc main_arg3)) := by
  show StableHlo.after hostOps0 (W0 m ρ c) (Proc.devRef .tc main_v16) = _
  after_results
  rfl

/-- The hidden features: the first layer's clamped combine. -/
def hidden (c : Dev nD) : S100000x64.Idx → EReal :=
  Cert.Layer.affineRelu
    (neighbourSum (F := Ideal) (m ((c : Thread nD τ).loc main_arg0)) (m ((c : Thread nD τ).loc main_arg1)))
    (m ((c : Thread nD τ).loc main_arg0))
    (weightT (F := Ideal) (m ((c : Thread nD τ).loc main_arg2)))
    (weightT (F := Ideal) (m ((c : Thread nD τ).loc main_arg4)))
    (biasRow (F := Ideal) (m ((c : Thread nD τ).loc main_arg3)))

/-- Region 0 leaves the hidden features in its output array. -/
theorem hidden_eq (c : Dev nD) : W2 m ρ c (Proc.devRef .tc main_v17) = hidden m c :=
  (W2_arr m ρ c 5).trans ((Cert.KernelIdeal.Region0.final (V1 m ρ) c).trans (by
    unfold Cert.KernelIdeal.Region0.whole hidden
    rw [entry0_agg, entry0_own, entry0_rel, entry0_root, entry0_bias]))

/-! ## What region 1 finds -/

theorem between_src (c : Dev nD) : W2 m ρ c (Proc.devRef .tc main_v1) = srcRow (m ((c : Thread nD τ).loc main_arg1)) :=
  (W2_of_ne m ρ c main_v1 (by decide)).trans (by
    show StableHlo.after hostOps0 (W0 m ρ c) (Proc.devRef .tc main_v1) = _
    after_results
    rfl)

theorem between_dst (c : Dev nD) : W2 m ρ c (Proc.devRef .tc main_v3) = dstRow (m ((c : Thread nD τ).loc main_arg1)) :=
  (W2_of_ne m ρ c main_v3 (by decide)).trans (by
    show StableHlo.after hostOps0 (W0 m ρ c) (Proc.devRef .tc main_v3) = _
    after_results
    rfl)

theorem between_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

theorem between_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)

theorem between_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

theorem entry1_agg (c : Dev nD) :
    V3 m ρ c main_v27 = neighbourSum (F := Ideal) (hidden m c) (m ((c : Thread nD τ).loc main_arg1)) := by
  show StableHlo.after hostOps1 (W2 m ρ c) (Proc.devRef .tc main_v27) = _
  after_results
  rw [between_src, between_dst, hidden_eq]
  rfl

theorem entry1_own (c : Dev nD) : V3 m ρ c main_v17 = hidden m c := by
  show StableHlo.after hostOps1 (W2 m ρ c) (Proc.devRef .tc main_v17) = _
  after_results
  exact hidden_eq m ρ c

theorem entry1_rel (c : Dev nD) : V3 m ρ c main_v28 = weightT (F := Ideal) (m ((c : Thread nD τ).loc main_arg5)) := by
  show StableHlo.after hostOps1 (W2 m ρ c) (Proc.devRef .tc main_v28) = _
  after_results
  rw [between_arg5]
  rfl

theorem entry1_root (c : Dev nD) : V3 m ρ c main_v29 = weightT (F := Ideal) (m ((c : Thread nD τ).loc main_arg7)) := by
  show StableHlo.after hostOps1 (W2 m ρ c) (Proc.devRef .tc main_v29) = _
  after_results
  rw [between_arg7]
  rfl

theorem entry1_bias (c : Dev nD) : V3 m ρ c main_v30 = biasRow (F := Ideal) (m ((c : Thread nD τ).loc main_arg6)) := by
  show StableHlo.after hostOps1 (W2 m ρ c) (Proc.devRef .tc main_v30) = _
  after_results
  rw [between_arg6]
  rfl

/-- The program's result: the second layer's affine combine over the hidden features. -/
def result (c : Dev nD) : S100000x64.Idx → EReal :=
  Cert.Layer.affine
    (neighbourSum (F := Ideal) (hidden m c) (m ((c : Thread nD τ).loc main_arg1)))
    (hidden m c)
    (weightT (F := Ideal) (m ((c : Thread nD τ).loc main_arg5)))
    (weightT (F := Ideal) (m ((c : Thread nD τ).loc main_arg7)))
    (biasRow (F := Ideal) (m ((c : Thread nD τ).loc main_arg6)))

/-- Region 1 leaves the result in the program's result array. -/
theorem result_eq (c : Dev nD) : W4 m ρ c (Proc.devRef .tc main_v31) = result m c :=
  (W4_arr m ρ c 5).trans ((Cert.KernelIdeal.Region1.final (V3 m ρ) c).trans (by
    unfold Cert.KernelIdeal.Region1.whole result
    rw [entry1_agg, entry1_own, entry1_rel, entry1_root, entry1_bias]))

end Cert.KernelIdeal.Result

end
-- ==== Proof.ReferenceValue.lean ====
/-
  The reference program's result as the same function of its arguments.

  The reference computes each layer on whole arrays: the neighbour sum times the transposed relation
  weight, plus the bias spread over the node rows, plus the nodes' own features times the transposed root
  weight; the first layer is clamped at zero. Entry (r, q) of a whole-array product is the sum over the 64
  contracted positions, so a layer's entry is

      (sum_k agg[r,k] * wrel[k,q]  +  bias[q])  +  sum_k h[r,k] * wroot[k,q]

  which is the kernel's  (sum + sum) + bias  by commutativity and associativity of addition on the
  extended reals (no finiteness is needed).
-/
import proofs.«107677_j25744033973010_1_alg».proof.Proof.Gen.ReferenceIdeal.Run
import proofs.«107677_j25744033973010_1_alg».proof.Proof.HostChain
import proofs.«107677_j25744033973010_1_alg».proof.Proof.Layer
import Idealize.ShloMosaic.Lib.ValueIdx
import Idealize.ShloMosaic.Lib.Pipeline.Value
import Idealize.ShloMosaic.PureOps.Ideal.Laws

set_option maxRecDepth 16384

noncomputable section

namespace Cert.ReferenceIdeal.Result

open Cert.ReferenceIdeal Cert.ReferenceIdeal.Facts₀ Cert.KernelIdeal.Graph
open Idealize.ShloMosaic Idealize.ShloMosaic.TcCoe Idealize.ShloMosaic.ValueIdx Idealize.SL.Sem

/-! ## The reference's layer as printed, for any float values -/

section Printed
variable {F : FTy → Type} [FloatOps F]

/-- One layer as the reference computes it on whole arrays. -/
def layer (agg h : FVec F S100000x64 .f32) (wrelT wrootT : FVec F S64x64 .f32) (b : FVec F S64 .f32) : FVec F S100000x64 .f32 :=
  addf (addf (Host.dotGeneral dot_S100000x64_S64x64_S100000x64_1_0_0_1_n_n none agg wrelT)
      (broadcastInDim S100000x64 ![0, 1] bcast_S1x64_S100000x64_0_1 (broadcastInDim S1x64 ![1] bcast_S64_S1x64_1 b)))
    (Host.dotGeneral dot_S100000x64_S64x64_S100000x64_1_0_0_1_n_n none h wrootT)

/-- The clamp at zero as the reference computes it. -/
def clamp (x : FVec F S100000x64 .f32) : FVec F S100000x64 .f32 :=
  maximumf x (broadcastInDim S100000x64 ![] bcast_S_S100000x64 (constant S_ .f32 0x00000000#32))

variable (m : (ℓ : Loc nD τ sig) → Buf (Elt F) ℓ)

/-- The hidden features as the reference computes them. -/
def hiddenRef (c : Dev nD) : FVec F S100000x64 .f32 :=
  clamp (layer
    (neighbourSum (m ((c.tc : Thread nD τ).loc main_arg0)) (m ((c.tc : Thread nD τ).loc main_arg1)))
    (m ((c.tc : Thread nD τ).loc main_arg0))
    (weightT (m ((c.tc : Thread nD τ).loc main_arg2)))
    (weightT (m ((c.tc : Thread nD τ).loc main_arg4)))
    (m ((c.tc : Thread nD τ).loc main_arg3)))

/-- The reference run's result term is two layers over the shared host pieces. -/
theorem res_shape (c : Dev nD) :
    Cert.ReferenceIdeal.Value.res_main_v40 m c = layer
      (neighbourSum (hiddenRef m c) (m ((c.tc : Thread nD τ).loc main_arg1)))
      (hiddenRef m c)
      (weightT (m ((c.tc : Thread nD τ).loc main_arg5)))
      (weightT (m ((c.tc : Thread nD τ).loc main_arg7)))
      (m ((c.tc : Thread nD τ).loc main_arg6)) := by
  unfold Cert.ReferenceIdeal.Value.res_main_v40
  rfl

end Printed

/-! ## The layer read at an entry, over the extended reals -/

theorem lhs_row (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhs_col (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rhs_row (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhs_col (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- A whole-array product at node row r and output feature q: the sum over the 64 contracted positions. -/
theorem dot_at (x : FVec Ideal S100000x64 .f32) (w : FVec Ideal S64x64 .f32) (r : Fin 100000) (q : Fin 64) :
    Host.dotGeneral (F := Ideal) dot_S100000x64_S64x64_S100000x64_1_0_0_1_n_n none x w (ix2 r q)
      = ∑ k : Fin 64, x (ix2 r k) * w (ix2 k q) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 r q) ((ValueIdx.contrEquiv1 dot_S100000x64_S64x64_S100000x64_1_0_0_1_n_n 64 rfl rfl).symm k) = ix2 r k := funext fun a => Fin.ext (by
    match a with
    | ⟨0, _⟩ => exact lhs_row _ _
    | ⟨1, _⟩ => exact (lhs_col _ _).trans hk)
  have er : dot_S100000x64_S64x64_S100000x64_1_0_0_1_n_n.rhsIdx (ix2 r q) ((ValueIdx.contrEquiv1 dot_S100000x64_S64x64_S100000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- The bias spread over the node rows: entry (r, q) is bias[q]. -/
theorem bias_at (b : FVec Ideal S64 .f32) (r : Fin 100000) (q : Fin 64) :
    broadcastInDim S100000x64 ![0, 1] bcast_S1x64_S100000x64_0_1 (broadcastInDim S1x64 ![1] bcast_S64_S1x64_1 b) (ix2 r q) = b (ix1 q) := by
  rw [broadcastInDim_apply _ bcast_S1x64_S100000x64_0_1 _ (ix2 r q) (ix2 (0 : Fin 1) q) (fun a => match a with
    | ⟨0, _⟩ => by show (0 : Nat) = if (1 : Nat) = 1 then 0 else r.val; rw [if_pos rfl]
    | ⟨1, _⟩ => by show q.val = if (64 : Nat) = 1 then 0 else q.val; rw [if_neg (by decide)])]
  exact broadcastInDim_apply _ bcast_S64_S1x64_1 b (ix2 (0 : Fin 1) q) (ix1 q) (fun a => match a with
    | ⟨0, _⟩ => by show q.val = if (64 : Nat) = 1 then 0 else q.val; rw [if_neg (by decide)])

/-- The bias as a one-row array: entry (0, q) is bias[q]. -/
theorem biasRow_at (b : FVec Ideal S64 .f32) (q : Fin 64) :
    biasRow (F := Ideal) b (ix2 (0 : Fin 1) q) = b (ix1 q) := by
  unfold biasRow
  exact shapeCast_apply b _ (ix2 (0 : Fin 1) q) (ix1 q)
    (by rewrite [Shape.rowMajor_val_two, Shape.rowMajor_val_one]; show q.val = 0 * 64 + q.val; omega)

/-- One layer of the reference is the affine combine of Layer.lean over the bias as a row:
    (A + b) + B = (A + B) + b. -/
theorem layer_eq (agg h : FVec Ideal S100000x64 .f32) (wrelT wrootT : FVec Ideal S64x64 .f32) (b : FVec Ideal S64 .f32) :
    layer (F := Ideal) agg h wrelT wrootT b = Cert.Layer.affine agg h wrelT wrootT (biasRow (F := Ideal) b) := by
  funext i
  obtain ⟨r, q, rfl⟩ : ∃ (r : Fin 100000) (q : Fin 64), i = ix2 r q := ⟨i 0, i 1, eq_ix2 i⟩
  show (Host.dotGeneral (F := Ideal) dot_S100000x64_S64x64_S100000x64_1_0_0_1_n_n none agg wrelT (ix2 r q)
      + broadcastInDim S100000x64 ![0, 1] bcast_S1x64_S100000x64_0_1 (broadcastInDim S1x64 ![1] bcast_S64_S1x64_1 b) (ix2 r q))
      + Host.dotGeneral (F := Ideal) dot_S100000x64_S64x64_S100000x64_1_0_0_1_n_n none h wrootT (ix2 r q)
    = Cert.Layer.affineAt agg h wrelT wrootT (biasRow (F := Ideal) b) r q
  rw [dot_at, dot_at, bias_at]
  unfold Cert.Layer.affineAt
  rw [biasRow_at]
  exact add_right_comm _ _ _

/-- The reference's clamp of the affine combine is the clamped combine of Layer.lean. -/
theorem clamp_eq (agg h : FVec Ideal S100000x64 .f32) (wrelT wrootT : FVec Ideal S64x64 .f32) (b : FVec Ideal S1x64 .f32) :
    clamp (F := Ideal) (Cert.Layer.affine agg h wrelT wrootT b) = Cert.Layer.affineRelu agg h wrelT wrootT b := by
  funext i
  show max (Cert.Layer.affine agg h wrelT wrootT b i)
      (broadcastInDim S100000x64 ![] bcast_S_S100000x64 (constant (F := Ideal) S_ .f32 0x00000000#32) i) = _
  rw [broadcastInDim_apply _ bcast_S_S100000x64 _ i ix0 (fun a => a.elim0)]
  rfl

/-! ## The result -/

variable (m : (ℓ : Loc nD τ sig) → Buf (Elt Ideal) ℓ)

/-- The hidden features: the first layer's clamped combine. -/
def hidden (c : Dev nD) : S100000x64.Idx → EReal :=
  Cert.Layer.affineRelu
    (neighbourSum (F := Ideal) (m ((c.tc : Thread nD τ).loc main_arg0)) (m ((c.tc : Thread nD τ).loc main_arg1)))
    (m ((c.tc : Thread nD τ).loc main_arg0))
    (weightT (F := Ideal) (m ((c.tc : Thread nD τ).loc main_arg2)))
    (weightT (F := Ideal) (m ((c.tc : Thread nD τ).loc main_arg4)))
    (biasRow (F := Ideal) (m ((c.tc : Thread nD τ).loc main_arg3)))

/-- The result: the second layer's affine combine over the hidden features. -/
def result (c : Dev nD) : S100000x64.Idx → EReal :=
  Cert.Layer.affine
    (neighbourSum (F := Ideal) (hidden m c) (m ((c.tc : Thread nD τ).loc main_arg1)))
    (hidden m c)
    (weightT (F := Ideal) (m ((c.tc : Thread nD τ).loc main_arg5)))
    (weightT (F := Ideal) (m ((c.tc : Thread nD τ).loc main_arg7)))
    (biasRow (F := Ideal) (m ((c.tc : Thread nD τ).loc main_arg6)))

theorem hiddenRef_eq (c : Dev nD) : hiddenRef (F := Ideal) m c = hidden m c := by
  unfold hiddenRef hidden
  rw [layer_eq, clamp_eq]

/-- The reference run's result term is that function of the arguments. -/
theorem res_eq (c : Dev nD) : Cert.ReferenceIdeal.Value.res_main_v40 (F := Ideal) m c = result m c := by
  rw [res_shape, hiddenRef_eq, layer_eq]
  rfl

end Cert.ReferenceIdeal.Result

end
-- ==== Proof.lean ====
/-
  Two graph-convolution layers, tiled by a kernel, against the same two layers on whole arrays.

  Both programs compute, for node features x, an edge list e and per-layer weights and biases,

      hidden = max( (nbr(x) W1rel^T + x W1root^T) + b1 , 0 )        result = (nbr(hidden) W2rel^T + hidden W2root^T) + b2

  where nbr gathers a node array at every edge's source and sums the rows at the edge's target. The
  kernel program does the neighbour sums on the host and each layer's combine in a region of ten tiles of
  10000 node rows; the reference does everything on whole arrays and adds the bias before the second
  product: (A + b) + B. Over the extended reals a change of float format is the identity, a matrix product
  into zeros is the sum over the contracted axis, and addition is commutative and associative, so the two
  results are one function of the arguments (no finiteness of the inputs is used).

  The frames of the two kernel programs are the generated ones; the reference's frame is its generated run
  with the result dropped; no operation was rewritten by the idealization, so it preserves trivially.
-/
import proofs.«107677_j25744033973010_1_alg».proof.Defs
import proofs.«107677_j25744033973010_1_alg».proof.Proof.Gen.Kernel
import proofs.«107677_j25744033973010_1_alg».proof.Proof.Gen.Kernel.Skeleton
import proofs.«107677_j25744033973010_1_alg».proof.Proof.Gen.Kernel.Launch
import proofs.«107677_j25744033973010_1_alg».proof.Proof.Gen.Kernel.Points
import proofs.«107677_j25744033973010_1_alg».proof.Proof.Gen.Kernel.Frame
import proofs.«107677_j25744033973010_1_alg».proof.Proof.Gen.KernelIdeal
import proofs.«107677_j25744033973010_1_alg».proof.Proof.Gen.KernelIdeal.Skeleton
import proofs.«107677_j25744033973010_1_alg».proof.Proof.Gen.KernelIdeal.Launch
import proofs.«107677_j25744033973010_1_alg».proof.Proof.Gen.KernelIdeal.Points
import proofs.«107677_j25744033973010_1_alg».proof.Proof.Gen.KernelIdeal.Frame
import proofs.«107677_j25744033973010_1_alg».proof.Proof.Gen.ReferenceIdeal
import proofs.«107677_j25744033973010_1_alg».proof.Proof.Gen.ReferenceIdeal.Run
import proofs.«107677_j25744033973010_1_alg».proof.Proof.Gen.Pre_finite_inputs
import proofs.«107677_j25744033973010_1_alg».proof.Proof.KernelRun
import proofs.«107677_j25744033973010_1_alg».proof.Proof.KernelValue
import proofs.«107677_j25744033973010_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the same function of the (agreeing) arguments. -/
theorem algebraic : Cert.algebraic_KernelIdeal_ReferenceIdeal := by
  intro m ρ m' ρ' _ hagree
  refine ⟨fun c => Cert.KernelIdeal.Result.result m c, ?_, ?_⟩
  · exact (θ_run Cert.KernelIdeal.defs _ _).mono
      (fun r h c => ⟨(h c).1.trans (Cert.KernelIdeal.Result.result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Result.res_eq]
    unfold Cert.ReferenceIdeal.Result.result Cert.ReferenceIdeal.Result.hidden Cert.KernelIdeal.Result.result Cert.KernelIdeal.Result.hidden
    obtain ⟨a0, a1, a2, a3, a4, a5, a6, a7⟩ := hagree c
    rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
